-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x8x8x258x258x1 : Shape := ⟨7, ![1, 8, 8, 8, 258, 258, 1]⟩
abbrev S_ : Shape := ⟨0, ![]⟩

class Facts : Prop where
  bcast_S_S1x8x8x8x258x258x1 : S_.BroadcastsInDim S1x8x8x8x258x258x1 (![] : Fin 0 → Fin S1x8x8x8x258x258x1.rank)
  reducesTo_S1x8x8x8x258x258x1_S_d0_1_2_3_4_5_6 : S1x8x8x8x258x258x1.ReducesTo [0, 1, 2, 3, 4, 5, 6] S_
  h_S_ : 0 < S_.numel

variable [Facts]

def fn {F : FTy → Type} [FloatOps F] (main_arg0 : FVec F S1x8x8x8x258x258x1 .f32) (main_arg1 : FVec F S1x8x8x8x258x258x1 .f32) : IVec S_ 1 :=
  let main_v0 : FVec F S1x8x8x8x258x258x1 .f32 := Host.absf main_arg0
  let main_cst : FVec F S_ .f32 := constant S_ .f32 0x7F800000#32
  let main_v1 : FVec F S1x8x8x8x258x258x1 .f32 := broadcastInDim S1x8x8x8x258x258x1 ![] bcast_S_S1x8x8x8x258x258x1 main_cst
  let main_v2 : IVec S1x8x8x8x258x258x1 1 := cmpf .olt main_v0 main_v1
  let main_c : IVec S_ 1 := constantI S_ 1 1#1
  let main_v3 : IVec S_ 1 := (fun x v => Host.reduce IntOp.andi x v reducesTo_S1x8x8x8x258x258x1_S_d0_1_2_3_4_5_6 h_S_) main_v2 main_c
  let main_v4 : FVec F S1x8x8x8x258x258x1 .f32 := Host.absf main_arg1
  let main_cst_0 : FVec F S_ .f32 := constant S_ .f32 0x7F800000#32
  let main_v5 : FVec F S1x8x8x8x258x258x1 .f32 := broadcastInDim S1x8x8x8x258x258x1 ![] bcast_S_S1x8x8x8x258x258x1 main_cst_0
  let main_v6 : IVec S1x8x8x8x258x258x1 1 := cmpf .olt main_v4 main_v5
  let main_c_1 : IVec S_ 1 := constantI S_ 1 1#1
  let main_v7 : IVec S_ 1 := (fun x v => Host.reduce IntOp.andi x v reducesTo_S1x8x8x8x258x258x1_S_d0_1_2_3_4_5_6 h_S_) main_v6 main_c_1
  let main_v8 : IVec S_ 1 := andi main_v3 main_v7
  main_v8
-- ==== Kernel.lean ====
abbrev S1x8x8x8x258x258x1 : Shape := ⟨7, ![1, 8, 8, 8, 258, 258, 1]⟩
abbrev S512x258x258 : Shape := ⟨3, ![512, 258, 258]⟩
abbrev S16x258x258 : Shape := ⟨3, ![16, 258, 258]⟩
abbrev S16x1x258 : Shape := ⟨3, ![16, 1, 258]⟩
abbrev S16x258x1 : Shape := ⟨3, ![16, 258, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x8x8x8x258x258x1, .f32⟩
  | .hbm, ⟨1, _⟩ => ⟨S1x8x8x8x258x258x1, .f32⟩
  | .hbm, ⟨2, _⟩ => ⟨S512x258x258, .f32⟩
  | .hbm, ⟨3, _⟩ => ⟨S512x258x258, .f32⟩
  | .hbm, ⟨4, _⟩ => ⟨S512x258x258, .f32⟩
  | .hbm, ⟨5, _⟩ => ⟨S1x8x8x8x258x258x1, .f32⟩
  | .local _ .vmem, ⟨0, _⟩ => ⟨S16x258x258, .f32⟩
  | .local _ .vmem, ⟨1, _⟩ => ⟨S16x258x258, .f32⟩
  | .local _ .vmem, ⟨2, _⟩ => ⟨S16x258x258, .f32⟩
  | .local _ .vmem, ⟨3, _⟩ => ⟨S16x258x258, .f32⟩
  | .local _ .vmem, ⟨4, _⟩ => ⟨S16x258x258, .f32⟩
  | .local _ .vmem, ⟨5, _⟩ => ⟨S16x258x258, .f32⟩
  | _, _ => ⟨S1x8x8x8x258x258x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x258x258 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x258x258 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x8x8x8x258x258x1_S512x258x258 : S1x8x8x8x258x258x1.ShapeCasts S512x258x258
  inb_S16x258x258_S16x258x258_0_0_0 : ∀ a, (![0, 0, 0] : Fin 3 → Nat) a + S16x258x258.size a ≤ S16x258x258.size a
  h_S16x258x258 : 0 < S16x258x258.numel
  shapeCasts_S16x258x258_S16x258x258 : S16x258x258.ShapeCasts S16x258x258
  inb_S16x258x258_S16x1x258_0_1_0 : ∀ a, (![0, 1, 0] : Fin 3 → Nat) a + S16x1x258.size a ≤ S16x258x258.size a
  h_S16x1x258 : 0 < S16x1x258.numel
  shapeCasts_S16x1x258_S16x1x258 : S16x1x258.ShapeCasts S16x1x258
  inb_S16x258x258_S16x1x258_0_0_0 : ∀ a, (![0, 0, 0] : Fin 3 → Nat) a + S16x1x258.size a ≤ S16x258x258.size a
  inb_S16x258x258_S16x1x258_0_256_0 : ∀ a, (![0, 256, 0] : Fin 3 → Nat) a + S16x1x258.size a ≤ S16x258x258.size a
  inb_S16x258x258_S16x1x258_0_257_0 : ∀ a, (![0, 257, 0] : Fin 3 → Nat) a + S16x1x258.size a ≤ S16x258x258.size a
  inb_S16x258x258_S16x258x1_0_0_1 : ∀ a, (![0, 0, 1] : Fin 3 → Nat) a + S16x258x1.size a ≤ S16x258x258.size a
  h_S16x258x1 : 0 < S16x258x1.numel
  shapeCasts_S16x258x1_S16x258x1 : S16x258x1.ShapeCasts S16x258x1
  inb_S16x258x258_S16x258x1_0_0_0 : ∀ a, (![0, 0, 0] : Fin 3 → Nat) a + S16x258x1.size a ≤ S16x258x258.size a
  inb_S16x258x258_S16x258x1_0_0_256 : ∀ a, (![0, 0, 256] : Fin 3 → Nat) a + S16x258x1.size a ≤ S16x258x258.size a
  inb_S16x258x258_S16x258x1_0_0_257 : ∀ a, (![0, 0, 257] : Fin 3 → Nat) a + S16x258x1.size a ≤ S16x258x258.size a
  shapeCasts_S512x258x258_S1x8x8x8x258x258x1 : S512x258x258.ShapeCasts S1x8x8x8x258x258x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x258x258.size a ≤ S512x258x258.size a
  hwx0_0 : ∀ i : grid0.Coords, EltTy.bits .f32 = 32 ∨ (Rect.block (s := S512x258x258) S16x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x258x258.size a ≤ S512x258x258.size a
  hwx0_1 : ∀ i : grid0.Coords, EltTy.bits .f32 = 32 ∨ (Rect.block (s := S512x258x258) S16x258x258.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x258x258.size a ≤ S512x258x258.size a
  hwx0_2 : ∀ i : grid0.Coords, EltTy.bits .f32 = 32 ∨ (Rect.block (s := S512x258x258) S16x258x258.size (cc0_transform_2 i) (hinb0_2 i)).WholeWords (EltTy.packing .f32)

variable [Facts₀]

abbrev win0_0 : Pipeline.Window sig grid0 :=
  Pipeline.Window.ofSpec (Memref.whole main_v0) S16x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x258x258.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x258x258.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x8x8x8x258x258x1 : Shape := ⟨7, ![1, 8, 8, 8, 258, 258, 1]⟩
abbrev S1x8x8x8x1x258x1 : Shape := ⟨7, ![1, 8, 8, 8, 1, 258, 1]⟩
abbrev S1x8x8x8x258x1 : Shape := ⟨6, ![1, 8, 8, 8, 258, 1]⟩
abbrev S_ : Shape := ⟨0, ![]⟩
abbrev S1 : Shape := ⟨1, ![1]⟩
abbrev S1x8x8x8x258x1x1 : Shape := ⟨7, ![1, 8, 8, 8, 258, 1, 1]⟩

abbrev nBuf : Space → Nat
  | .hbm => 23
  | .vmem => 0
  | .smem => 0
  | _ => 0

abbrev bufTy : (tb : Table) → Fin (tcTables nBuf tb) → BufTy
  | .hbm, ⟨0, _⟩ => ⟨S1x8x8x8x258x258x1, .f32⟩
  | .hbm, ⟨1, _⟩ => ⟨S1x8x8x8x258x258x1, .f32⟩
  | .hbm, ⟨2, _⟩ => ⟨S1x8x8x8x1x258x1, .f32⟩
  | .hbm, ⟨3, _⟩ => ⟨S1x8x8x8x258x1, .f32⟩
  | .hbm, ⟨4, _⟩ => ⟨S_, .i32⟩
  | .hbm, ⟨5, _⟩ => ⟨S1, .i32⟩
  | .hbm, ⟨6, _⟩ => ⟨S1x8x8x8x258x258x1, .f32⟩
  | .hbm, ⟨7, _⟩ => ⟨S1x8x8x8x1x258x1, .f32⟩
  | .hbm, ⟨8, _⟩ => ⟨S1x8x8x8x258x1, .f32⟩
  | .hbm, ⟨9, _⟩ => ⟨S_, .i32⟩
  | .hbm, ⟨10, _⟩ => ⟨S1, .i32⟩
  | .hbm, ⟨11, _⟩ => ⟨S1x8x8x8x258x258x1, .f32⟩
  | .hbm, ⟨12, _⟩ => ⟨S1x8x8x8x258x1x1, .f32⟩
  | .hbm, ⟨13, _⟩ => ⟨S1x8x8x8x258x1, .f32⟩
  | .hbm, ⟨14, _⟩ => ⟨S_, .i32⟩
  | .hbm, ⟨15, _⟩ => ⟨S1, .i32⟩
  | .hbm, ⟨16, _⟩ => ⟨S1x8x8x8x258x258x1, .f32⟩
  | .hbm, ⟨17, _⟩ => ⟨S1x8x8x8x258x1x1, .f32⟩
  | .hbm, ⟨18, _⟩ => ⟨S1x8x8x8x258x1, .f32⟩
  | .hbm, ⟨19, _⟩ => ⟨S_, .i32⟩
  | .hbm, ⟨20, _⟩ => ⟨S1, .i32⟩
  | .hbm, ⟨21, _⟩ => ⟨S1x8x8x8x258x258x1, .f32⟩
  | .hbm, ⟨22, _⟩ => ⟨S1x8x8x8x258x258x1, .f32⟩
  | _, _ => ⟨S1x8x8x8x258x258x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S1x8x8x8x258x258x1_S1x8x8x8x1x258x1_0_0_0_0_1_0_0 : S1x8x8x8x258x258x1.Slices ![0, 0, 0, 0, 1, 0, 0] S1x8x8x8x1x258x1
  shapeCasts_S1x8x8x8x1x258x1_S1x8x8x8x258x1 : S1x8x8x8x1x258x1.ShapeCasts S1x8x8x8x258x1
  bcast_S_S1 : S_.BroadcastsInDim S1 (![] : Fin 0 → Fin S1.rank)
  slices_S1x8x8x8x258x258x1_S1x8x8x8x1x258x1_0_0_0_0_256_0_0 : S1x8x8x8x258x258x1.Slices ![0, 0, 0, 0, 256, 0, 0] S1x8x8x8x1x258x1
  slices_S1x8x8x8x258x258x1_S1x8x8x8x258x1x1_0_0_0_0_0_1_0 : S1x8x8x8x258x258x1.Slices ![0, 0, 0, 0, 0, 1, 0] S1x8x8x8x258x1x1
  shapeCasts_S1x8x8x8x258x1x1_S1x8x8x8x258x1 : S1x8x8x8x258x1x1.ShapeCasts S1x8x8x8x258x1
  slices_S1x8x8x8x258x258x1_S1x8x8x8x258x1x1_0_0_0_0_0_256_0 : S1x8x8x8x258x258x1.Slices ![0, 0, 0, 0, 0, 256, 0] S1x8x8x8x258x1x1
  scatter_S1x8x8x8x258x258x1_S1_S1x8x8x8x258x1_012345_4_4_0_wf : ScatterDims.WF S1x8x8x8x258x258x1 S1 S1x8x8x8x258x1 [0, 1, 2, 3, 4, 5] [4] [4] 0
  scatter_S1x8x8x8x258x258x1_S1_S1x8x8x8x258x1_012345_5_5_0_wf : ScatterDims.WF S1x8x8x8x258x258x1 S1 S1x8x8x8x258x1 [0, 1, 2, 3, 4, 5] [5] [5] 0

variable [Facts₀]

def scatter_S1x8x8x8x258x258x1_S1_S1x8x8x8x258x1_012345_4_4_0 : ScatterDims S1x8x8x8x258x258x1 S1 S1x8x8x8x258x1 where
  updateWindowDims := [0, 1, 2, 3, 4, 5]
  insertedWindowDims := [4]
  scatterDimsToOperandDims := [4]
  indexVectorDim := 0
  wf := scatter_S1x8x8x8x258x258x1_S1_S1x8x8x8x258x1_012345_4_4_0_wf
def scatter_S1x8x8x8x258x258x1_S1_S1x8x8x8x258x1_012345_5_5_0 : ScatterDims S1x8x8x8x258x258x1 S1 S1x8x8x8x258x1 where
  updateWindowDims := [0, 1, 2, 3, 4, 5]
  insertedWindowDims := [5]
  scatterDimsToOperandDims := [5]
  indexVectorDim := 0
  wf := scatter_S1x8x8x8x258x258x1_S1_S1x8x8x8x258x1_012345_5_5_0_wf

class Facts : Prop extends Facts₀ where

variable [Facts]
-- ==== Proof.Spec.lean ====
/-
  The halo fill as ONE function of the two argument arrays.

  The arrays are seven-axis, `[1, 8, 8, 8, H, W, 1]` with `H = W = 258`; axes 4 and 5 are the two spatial axes. The
  result at an index is the product of the mask `hm` at that index with `x` at a SOURCE index, which differs from
  the index only on the boundary of the spatial tile: on the first and last column the source is the neighbouring
  column (1 and 256) of the same row; elsewhere on the first and last row it is the neighbouring row (1 and 256)
  of the same column; in the interior it is the index itself. The columns are decided first, so at the four
  corners the column rule applies and the row is kept.

  The kernel works on the same data seen as `[512, 258, 258]` (the four leading axes merged, the trailing unit
  axis dropped); `reshape_halo` says that the fill commutes with that change of shape, because the row-major
  position of `(0, a, b, c, h, w, 0)` is that of `((a·8 + b)·8 + c, h, w)`.
-/
import Idealize.ShloMosaic.Lib.ValueIdx
import Idealize.ShloMosaic.Lib.Pipeline.Value

namespace Cert.Halo

open Idealize.ShloMosaic Idealize.ShloMosaic.ValueIdx

/-- The row-major position of a rank-7 index as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- The arrays' shape, the kernel's view of it, and the shape of one row or column slab of it. -/
abbrev S7 : Shape := ⟨7, ![1, 8, 8, 8, 258, 258, 1]⟩
abbrev S3 : Shape := ⟨3, ![512, 258, 258]⟩
abbrev S6 : Shape := ⟨6, ![1, 8, 8, 8, 258, 1]⟩

/-- A rank-7 index from its coordinates. -/
abbrev ix7 {n0 n1 n2 n3 n4 n5 n6 : Nat} (a0 : Fin n0) (a1 : Fin n1) (a2 : Fin n2) (a3 : Fin n3) (a4 : Fin n4)
    (a5 : Fin n5) (a6 : Fin n6) : (⟨7, ![n0, n1, n2, n3, n4, n5, n6]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- The source column: the neighbour on the first and the last column, the column itself elsewhere. -/
def srcW (w : Fin 258) : Fin 258 :=
  if w.val = 0 then ⟨1, by omega⟩ else if w.val = 257 then ⟨256, by omega⟩ else w

/-- The source row: kept on the first and the last column (the column rule wins at the corners); elsewhere the
    neighbour on the first and the last row, the row itself in between. -/
def srcH (h w : Fin 258) : Fin 258 :=
  if w.val = 0 ∨ w.val = 257 then h
  else if h.val = 0 then ⟨1, by omega⟩ else if h.val = 257 then ⟨256, by omega⟩ else h

/-- The source index in the arrays' own shape. -/
def src7 (i : S7.Idx) : S7.Idx := ix7 (i 0) (i 1) (i 2) (i 3) (srcH (i 4) (i 5)) (srcW (i 5)) (i 6)

/-- The source index in a stack of `N` spatial tiles. -/
def src3 {N : Nat} (y : (⟨3, ![N, 258, 258]⟩ : Shape).Idx) : (⟨3, ![N, 258, 258]⟩ : Shape).Idx :=
  ix3 (y 0) (srcH (y 1) (y 2)) (srcW (y 2))

/-- The halo fill of `x` times the mask, over the arrays' own shape (`f` is the multiplication). -/
def halo7 {α : Type} (f : α → α → α) (x hm : S7.Idx → α) : S7.Idx → α := fun i => f (x (src7 i)) (hm i)

/-- The same over a stack of `N` spatial tiles. -/
def halo3 {α : Type} {N : Nat} (f : α → α → α) (x hm : (⟨3, ![N, 258, 258]⟩ : Shape).Idx → α) :
    (⟨3, ![N, 258, 258]⟩ : Shape).Idx → α := fun y => f (x (src3 y)) (hm y)

/-- The tile number of `(a, b, c)`: its row-major position among the `8 · 8 · 8` tiles. -/
def tileOf (a b c : Fin 8) : Fin 512 := ⟨(a.val * 8 + b.val) * 8 + c.val, by omega⟩

/-- The row-major positions of `(a0, a, b, c, h, w, z)` and of `(tile, h, w)` are equal. -/
theorem rowMajor_tile (a0 : Fin 1) (a b c : Fin 8) (h w : Fin 258) (z : Fin 1) :
    (S7.rowMajor (ix7 a0 a b c h w z)).val = (S3.rowMajor (ix3 (tileOf a b c) h w)).val := by
  rw [rowMajor_val_seven, Shape.rowMajor_val_three]
  show ((((((a0.val * 8 + a.val) * 8 + b.val) * 8 + c.val) * 258 + h.val) * 258 + w.val) * 1 + z.val)
    = (((a.val * 8 + b.val) * 8 + c.val) * 258 + h.val) * 258 + w.val
  have h0 := a0.isLt; have hz := z.isLt
  omega

/-- The fill commutes with the change of shape between `[1, 8, 8, 8, 258, 258, 1]` and `[512, 258, 258]`. -/
theorem reshape_halo {α : Type} (f : α → α → α) (x hm : S7.Idx → α) (h73 : S7.ShapeCasts S3)
    (h37 : S3.ShapeCasts S7) :
    shapeCast S7 (halo3 f (shapeCast S3 x h73) (shapeCast S3 hm h73)) h37 = halo7 f x hm := by
  funext i
  obtain ⟨a0, a, b, c, h, w, z, rfl⟩ : ∃ (a0 : Fin 1) (a b c : Fin 8) (h w : Fin 258) (z : Fin 1),
      i = ix7 a0 a b c h w z := ⟨i 0, i 1, i 2, i 3, i 4, i 5, i 6, eq_ix7 i⟩
  -- the result at `(a0, a, b, c, h, w, z)` is the stack's at `(tile, h, w)`
  rw [shapeCast_apply _ h37 (ix7 a0 a b c h w z) (ix3 (tileOf a b c) h w) (rowMajor_tile a0 a b c h w z).symm]
  show f (shapeCast S3 x h73 (ix3 (tileOf a b c) (srcH h w) (srcW w))) (shapeCast S3 hm h73 (ix3 (tileOf a b c) h w))
    = f (x (ix7 a0 a b c (srcH h w) (srcW w) z)) (hm (ix7 a0 a b c h w z))
  -- and the stack's entries at `(tile, h', w')` are the arrays' at `(a0, a, b, c, h', w', z)`
  rw [shapeCast_apply x h73 (ix3 (tileOf a b c) (srcH h w) (srcW w)) (ix7 a0 a b c (srcH h w) (srcW w) z)
      (rowMajor_tile a0 a b c (srcH h w) (srcW w) z),
    shapeCast_apply hm h73 (ix3 (tileOf a b c) h w) (ix7 a0 a b c h w z) (rowMajor_tile a0 a b c h w z)]

end Cert.Halo
-- ==== Proof.Block.lean ====
/-
  What the kernel body leaves in its output block: the halo fill of the `x` block times the mask block.

  The body stores five times into the block, later stores overwriting earlier ones: the whole block `x · hm`; row 0
  as row 1 of `x` times row 0 of `hm`; row 257 as row 256 of `x` times row 257 of `hm`; column 0 as column 1 of `x`
  times column 0 of `hm`; column 257 as column 256 of `x` times column 257 of `hm`. Reading the block back at
  `(b, h, w)`, the newest store that covers the index decides: the two column stores first, then the two row stores,
  then the whole-block store. In every case the value is `x` at the source index of `(h, w)` times `hm` at `(h, w)`.
-/
import proofs.«403052_j84507776516392_3_alg».proof.Proof.FrameKernelIdeal
import proofs.«403052_j84507776516392_3_alg».proof.Proof.Spec
import Idealize.ShloMosaic.Lib.WritesUnit

set_option maxRecDepth 16384

noncomputable section

namespace Cert.KernelIdeal.Block

open Cert.KernelIdeal Cert.KernelIdeal.Gen Cert.KernelIdeal.GenP Cert.Halo
open Idealize.ShloMosaic Idealize.ShloMosaic.ValueIdx Idealize.ShloMosaic.TcCoe Idealize.ShloMosaic.Tactic Idealize.SL.Sem

variable {F : FTy → Type} [FloatOps F]

/-- The product of a slice of `X0` and a slice of `X1`, both through unit-stride rectangles of one size, read at a
    position: the product of `X0` and `X1` at their offsets plus the position. -/
theorem mul_ld_apply {S : Shape} (X0 X1 : Vec F S .f32) (off0 off1 size : Fin S.rank → Nat)
    (inb0 : ∀ a, off0 a + size a ≤ S.size a) (inb1 : ∀ a, off1 a + size a ≤ S.size a)
    (x : (⟨S.rank, size⟩ : Shape).Idx) (k0 k1 : S.Idx)
    (hk0 : ∀ a, (k0 a).val = off0 a + (x a).val) (hk1 : ∀ a, (k1 a).val = off1 a + (x a).val) :
    mulf (F := F) (φ := .f32) (View.ld (Val := Elt F) X0 (Rect.unit off0 size inb0))
        (View.ld (Val := Elt F) X1 (Rect.unit off1 size inb1)) x
      = FloatOps.mulf (X0 k0) (X1 k1) := by
  have e0 : (Rect.unit off0 size inb0).idx x = k0 := funext fun a => Fin.ext (by
    show off0 a + 1 * (x a).val = (k0 a).val
    rw [hk0 a, Nat.one_mul])
  have e1 : (Rect.unit off1 size inb1).idx x = k1 := funext fun a => Fin.ext (by
    show off1 a + 1 * (x a).val = (k1 a).val
    rw [hk1 a, Nat.one_mul])
  show FloatOps.mulf (X0 ((Rect.unit off0 size inb0).idx x)) (X1 ((Rect.unit off1 size inb1).idx x)) = _
  rw [e0, e1]

variable (x0 x1 : Vec F S16x258x258 .f32)

/-- The last column's store at `(b, h)`: column 256 of `x` times column 257 of the mask. -/
theorem pay_col_last (b : Fin 16) (h : Fin 258) :
    k0_pay1 (View.ld x0 (Rect.unit ![0, 0, 256] ![16, 258, 1] inb_S16x258x258_S16x258x1_0_0_256))
        (View.ld x1 (Rect.unit ![0, 0, 257] ![16, 258, 1] inb_S16x258x258_S16x258x1_0_0_257)) (ix3 b h (0 : Fin 1))
      = FloatOps.mulf (x0 (ix3 b h (⟨256, by omega⟩ : Fin 258))) (x1 (ix3 b h (⟨257, by omega⟩ : Fin 258))) := by
  dsimp only [k0_pay1]
  rw [shapeCast_self, shapeCast_self]
  exact mul_ld_apply x0 x1 _ _ _ _ _ (ix3 b h (0 : Fin 1)) (ix3 b h (⟨256, by omega⟩ : Fin 258)) (ix3 b h (⟨257, by omega⟩ : Fin 258)) (fun a => match a with
      | ⟨0, _⟩ => by show b.val = 0 + b.val; omega
      | ⟨1, _⟩ => by show h.val = 0 + h.val; omega
      | ⟨2, _⟩ => by show 256 = 256 + 0; omega)
    (fun a => match a with
      | ⟨0, _⟩ => by show b.val = 0 + b.val; omega
      | ⟨1, _⟩ => by show h.val = 0 + h.val; omega
      | ⟨2, _⟩ => by show 257 = 257 + 0; omega)

/-- The first column's store at `(b, h)`: column 1 of `x` times column 0 of the mask. -/
theorem pay_col_first (b : Fin 16) (h : Fin 258) :
    k0_pay5 (View.ld x0 (Rect.unit ![0, 0, 1] ![16, 258, 1] inb_S16x258x258_S16x258x1_0_0_1))
        (View.ld x1 (Rect.unit ![0, 0, 0] ![16, 258, 1] inb_S16x258x258_S16x258x1_0_0_0)) (ix3 b h (0 : Fin 1))
      = FloatOps.mulf (x0 (ix3 b h (⟨1, by omega⟩ : Fin 258))) (x1 (ix3 b h (⟨0, by omega⟩ : Fin 258))) := by
  dsimp only [k0_pay5]
  rw [shapeCast_self, shapeCast_self]
  exact mul_ld_apply x0 x1 _ _ _ _ _ (ix3 b h (0 : Fin 1)) (ix3 b h (⟨1, by omega⟩ : Fin 258)) (ix3 b h (⟨0, by omega⟩ : Fin 258)) (fun a => match a with
      | ⟨0, _⟩ => by show b.val = 0 + b.val; omega
      | ⟨1, _⟩ => by show h.val = 0 + h.val; omega
      | ⟨2, _⟩ => by show 1 = 1 + 0; omega)
    (fun a => match a with
      | ⟨0, _⟩ => by show b.val = 0 + b.val; omega
      | ⟨1, _⟩ => by show h.val = 0 + h.val; omega
      | ⟨2, _⟩ => by show 0 = 0 + 0; omega)

/-- The last row's store at `(b, w)`: row 256 of `x` times row 257 of the mask. -/
theorem pay_row_last (b : Fin 16) (w : Fin 258) :
    k0_pay4 (View.ld x0 (Rect.unit ![0, 256, 0] ![16, 1, 258] inb_S16x258x258_S16x1x258_0_256_0))
        (View.ld x1 (Rect.unit ![0, 257, 0] ![16, 1, 258] inb_S16x258x258_S16x1x258_0_257_0)) (ix3 b (0 : Fin 1) w)
      = FloatOps.mulf (x0 (ix3 b (⟨256, by omega⟩ : Fin 258) w)) (x1 (ix3 b (⟨257, by omega⟩ : Fin 258) w)) := by
  dsimp only [k0_pay4]
  rw [shapeCast_self, shapeCast_self]
  exact mul_ld_apply x0 x1 _ _ _ _ _ (ix3 b (0 : Fin 1) w) (ix3 b (⟨256, by omega⟩ : Fin 258) w) (ix3 b (⟨257, by omega⟩ : Fin 258) w) (fun a => match a with
      | ⟨0, _⟩ => by show b.val = 0 + b.val; omega
      | ⟨1, _⟩ => by show 256 = 256 + 0; omega
      | ⟨2, _⟩ => by show w.val = 0 + w.val; omega)
    (fun a => match a with
      | ⟨0, _⟩ => by show b.val = 0 + b.val; omega
      | ⟨1, _⟩ => by show 257 = 257 + 0; omega
      | ⟨2, _⟩ => by show w.val = 0 + w.val; omega)

/-- The first row's store at `(b, w)`: row 1 of `x` times row 0 of the mask. -/
theorem pay_row_first (b : Fin 16) (w : Fin 258) :
    k0_pay3 (View.ld x0 (Rect.unit ![0, 1, 0] ![16, 1, 258] inb_S16x258x258_S16x1x258_0_1_0))
        (View.ld x1 (Rect.unit ![0, 0, 0] ![16, 1, 258] inb_S16x258x258_S16x1x258_0_0_0)) (ix3 b (0 : Fin 1) w)
      = FloatOps.mulf (x0 (ix3 b (⟨1, by omega⟩ : Fin 258) w)) (x1 (ix3 b (⟨0, by omega⟩ : Fin 258) w)) := by
  dsimp only [k0_pay3]
  rw [shapeCast_self, shapeCast_self]
  exact mul_ld_apply x0 x1 _ _ _ _ _ (ix3 b (0 : Fin 1) w) (ix3 b (⟨1, by omega⟩ : Fin 258) w) (ix3 b (⟨0, by omega⟩ : Fin 258) w) (fun a => match a with
      | ⟨0, _⟩ => by show b.val = 0 + b.val; omega
      | ⟨1, _⟩ => by show 1 = 1 + 0; omega
      | ⟨2, _⟩ => by show w.val = 0 + w.val; omega)
    (fun a => match a with
      | ⟨0, _⟩ => by show b.val = 0 + b.val; omega
      | ⟨1, _⟩ => by show 0 = 0 + 0; omega
      | ⟨2, _⟩ => by show w.val = 0 + w.val; omega)

/-- The whole-block store at `(b, h, w)`: `x` times the mask there. -/
theorem pay_whole (b : Fin 16) (h w : Fin 258) :
    k0_pay2 (View.ld x0 (Rect.unit ![0, 0, 0] ![16, 258, 258] inb_S16x258x258_S16x258x258_0_0_0))
        (View.ld x1 (Rect.unit ![0, 0, 0] ![16, 258, 258] inb_S16x258x258_S16x258x258_0_0_0)) (ix3 b h w)
      = FloatOps.mulf (x0 (ix3 b h w)) (x1 (ix3 b h w)) := by
  dsimp only [k0_pay2]
  rw [shapeCast_self, shapeCast_self]
  exact mul_ld_apply x0 x1 _ _ _ _ _ (ix3 b h w) (ix3 b h w) (ix3 b h w) (fun a => match a with
      | ⟨0, _⟩ => by show b.val = 0 + b.val; omega
      | ⟨1, _⟩ => by show h.val = 0 + h.val; omega
      | ⟨2, _⟩ => by show w.val = 0 + w.val; omega)
    (fun a => match a with
      | ⟨0, _⟩ => by show b.val = 0 + b.val; omega
      | ⟨1, _⟩ => by show h.val = 0 + h.val; omega
      | ⟨2, _⟩ => by show w.val = 0 + w.val; omega)

/-- The block the body leaves is the halo fill of its two input blocks. -/
theorem out_block (c : Dev nD) (i : grid0.Coords) (arg1 : Memref sig .tc .vmem S16x258x258 .f32) (harg1 : arg1.IsWhole)
    (arg2 : Memref sig .tc .vmem S16x258x258 .f32) (harg2 : arg2.IsWhole)
    (arg3 : Memref sig .tc .vmem S16x258x258 .f32) (harg3 : arg3.IsWhole) :
    out0_A_2 c i arg1 harg1 arg2 harg2 arg3 harg3 x0 x1
      = halo3 (N := 16) (FloatOps.mulf (F := F) (φ := .f32)) x0 x1 := by
  funext y
  obtain ⟨b, h, w, rfl⟩ : ∃ (b : Fin 16) (h w : Fin 258), y = ix3 b h w := ⟨y 0, y 1, y 2, eq_ix3 y⟩
  unfold out0_A_2 kernelRun0_A
  dsimp only
  sl_unfold_words
  simp only [View.readAt_eq_ld, harg1.read_unread, harg2.read_unread]
  show _ = FloatOps.mulf (x0 (ix3 b (srcH h w) (srcW w))) (x1 (ix3 b h w))
  by_cases hw1 : w.val = 257
  · -- on the last column the newest store decides
    have e1 : srcW w = ⟨256, by omega⟩ := by unfold srcW; rw [if_neg (by omega), if_pos hw1]
    have e2 : srcH h w = h := by unfold srcH; rw [if_pos (Or.inr hw1)]
    have e3 : w = ⟨257, by omega⟩ := Fin.ext hw1
    rw [e1, e2]
    refine (View.read_writes_cons_unit_of_mem VO0_2 _ _ _ _ (ix3 b h w) (ix3 b h (0 : Fin 1)) rfl (fun a => match a with
      | ⟨0, _⟩ => by show b.val = 0 + b.val; omega
      | ⟨1, _⟩ => by show h.val = 0 + h.val; omega
      | ⟨2, _⟩ => by show w.val = 257 + 0; omega)).trans ?_
    rw [pay_col_last x0 x1 b h, e3]
  · refine (View.read_writes_cons_unit_of_not_mem VO0_2 _ _ _ _ (ix3 b h w) rfl ⟨2, by decide⟩
      (Or.inl (by show w.val < 257; omega))).trans ?_
    by_cases hw0 : w.val = 0
    · -- on the first column the second newest store decides
      have e1 : srcW w = ⟨1, by omega⟩ := by unfold srcW; rw [if_pos hw0]
      have e2 : srcH h w = h := by unfold srcH; rw [if_pos (Or.inl hw0)]
      have e3 : w = ⟨0, by omega⟩ := Fin.ext hw0
      rw [e1, e2]
      refine (View.read_writes_cons_unit_of_mem VO0_2 _ _ _ _ (ix3 b h w) (ix3 b h (0 : Fin 1)) rfl (fun a => match a with
        | ⟨0, _⟩ => by show b.val = 0 + b.val; omega
        | ⟨1, _⟩ => by show h.val = 0 + h.val; omega
        | ⟨2, _⟩ => by show w.val = 0 + 0; omega)).trans ?_
      rw [pay_col_first x0 x1 b h, e3]
    · refine (View.read_writes_cons_unit_of_not_mem VO0_2 _ _ _ _ (ix3 b h w) rfl ⟨2, by decide⟩
        (Or.inr (by show 0 + 1 ≤ w.val; omega))).trans ?_
      have e1 : srcW w = w := by unfold srcW; rw [if_neg hw0, if_neg hw1]
      have hc : ¬ (w.val = 0 ∨ w.val = 257) := fun hh => hh.elim hw0 hw1
      by_cases hh1 : h.val = 257
      · -- off the two columns, on the last row
        have e2 : srcH h w = ⟨256, by omega⟩ := by unfold srcH; rw [if_neg hc, if_neg (by omega), if_pos hh1]
        have e3 : h = ⟨257, by omega⟩ := Fin.ext hh1
        rw [e1, e2]
        refine (View.read_writes_cons_unit_of_mem VO0_2 _ _ _ _ (ix3 b h w) (ix3 b (0 : Fin 1) w) rfl (fun a => match a with
          | ⟨0, _⟩ => by show b.val = 0 + b.val; omega
          | ⟨1, _⟩ => by show h.val = 257 + 0; omega
          | ⟨2, _⟩ => by show w.val = 0 + w.val; omega)).trans ?_
        rw [pay_row_last x0 x1 b w, e3]
      · refine (View.read_writes_cons_unit_of_not_mem VO0_2 _ _ _ _ (ix3 b h w) rfl ⟨1, by decide⟩
          (Or.inl (by show h.val < 257; omega))).trans ?_
        by_cases hh0 : h.val = 0
        · have e2 : srcH h w = ⟨1, by omega⟩ := by unfold srcH; rw [if_neg hc, if_pos hh0]
          have e3 : h = ⟨0, by omega⟩ := Fin.ext hh0
          rw [e1, e2]
          refine (View.read_writes_cons_unit_of_mem VO0_2 _ _ _ _ (ix3 b h w) (ix3 b (0 : Fin 1) w) rfl (fun a => match a with
            | ⟨0, _⟩ => by show b.val = 0 + b.val; omega
            | ⟨1, _⟩ => by show h.val = 0 + 0; omega
            | ⟨2, _⟩ => by show w.val = 0 + w.val; omega)).trans ?_
          rw [pay_row_first x0 x1 b w, e3]
        · -- the interior: only the whole-block store covers it
          refine (View.read_writes_cons_unit_of_not_mem VO0_2 _ _ _ _ (ix3 b h w) rfl ⟨1, by decide⟩
            (Or.inr (by show 0 + 1 ≤ h.val; omega))).trans ?_
          have e2 : srcH h w = h := by unfold srcH; rw [if_neg hc, if_neg hh0, if_neg hh1]
          rw [e1, e2]
          refine (View.read_writes_cons_unit_of_mem VO0_2 _ _ _ _ (ix3 b h w) (ix3 b h w) rfl (fun a => match a with
            | ⟨0, _⟩ => by show b.val = 0 + b.val; omega
            | ⟨1, _⟩ => by show h.val = 0 + h.val; omega
            | ⟨2, _⟩ => by show w.val = 0 + w.val; omega)).trans ?_
          exact pay_whole x0 x1 b h w

end Cert.KernelIdeal.Block

end
-- ==== Proof.KernelValue.lean ====
/-
  What the kernel's program ends holding in its result, as one function of the two argument arrays.

  The pallas_call walks 32 grid points; at point `t` it fetches tiles `16·t … 16·t + 15` of `x` and of the mask (each
  seen as a stack of 512 spatial tiles), the body leaves the halo fill of the two blocks in the output block, and
  the block is written back over tiles `16·t … 16·t + 15` of the output stack. The source index of a halo entry stays
  inside its tile, so the fill of a block IS the block of the fill of the whole stack; the 32 blocks tile the stack;
  hence the output stack is the fill of the whole stack. The host reshapes before and after the call turn that into
  the fill over the arrays' own seven-axis shape (`Cert.Halo.reshape_halo`).
-/
import proofs.«403052_j84507776516392_3_alg».proof.Proof.Block
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.GenP Cert.Halo
open Idealize.ShloMosaic Idealize.ShloMosaic.ValueIdx Idealize.ShloMosaic.TcCoe Idealize.ShloMosaic.Tactic Idealize.SL.Sem
open Idealize.ShloMosaic.Pipeline (Dat Cfg Window)

variable {F : FTy → Type} [FloatOps F]

variable (m : (ℓ : Loc nD τ sig) → Buf (Elt F) ℓ) (ρ : Dev nD → PrngReg)

/-- The printed index maps over the grid: at point `t` each window's block index is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Tile `b` of point `t`'s block is tile `16·t + b` of the stack. -/
def tileAt (t : Fin cfg0.N) (b : Fin 16) : Fin 512 := ⟨t.val * 16 + b.val, by
  have ht : t.val < 32 := t.isLt
  omega⟩

/-- Where each window's block at point `t` sits in its array. -/
theorem emb0 (t : Fin cfg0.N) (b : Fin 16) (h w : Fin 258) :
    ((cfg0.win 0).blk t).view.emb (ix3 b h w) = ix3 (tileAt t b) h w := by
  obtain ⟨e0, e1, e2, -⟩ := idx_facts t
  funext a; apply Fin.ext
  match a with
  | ⟨0, _⟩ => show win0_0.index t (0 : Fin 3) * 16 + 1 * b.val = t.val * 16 + b.val; omega
  | ⟨1, _⟩ => show win0_0.index t (1 : Fin 3) * 258 + 1 * h.val = h.val; omega
  | ⟨2, _⟩ => show win0_0.index t (2 : Fin 3) * 258 + 1 * w.val = w.val; omega

theorem emb1 (t : Fin cfg0.N) (b : Fin 16) (h w : Fin 258) :
    ((cfg0.win 1).blk t).view.emb (ix3 b h w) = ix3 (tileAt t b) h w := by
  obtain ⟨-, -, -, e0, e1, e2, -⟩ := idx_facts t
  funext a; apply Fin.ext
  match a with
  | ⟨0, _⟩ => show win0_1.index t (0 : Fin 3) * 16 + 1 * b.val = t.val * 16 + b.val; omega
  | ⟨1, _⟩ => show win0_1.index t (1 : Fin 3) * 258 + 1 * h.val = h.val; omega
  | ⟨2, _⟩ => show win0_1.index t (2 : Fin 3) * 258 + 1 * w.val = w.val; omega

theorem emb2 (t : Fin cfg0.N) (b : Fin 16) (h w : Fin 258) :
    ((cfg0.win 2).blk t).view.emb (ix3 b h w) = ix3 (tileAt t b) h w := by
  obtain ⟨-, -, -, -, -, -, e0, e1, e2⟩ := idx_facts t
  funext a; apply Fin.ext
  match a with
  | ⟨0, _⟩ => show win0_2.index t (0 : Fin 3) * 16 + 1 * b.val = t.val * 16 + b.val; omega
  | ⟨1, _⟩ => show win0_2.index t (1 : Fin 3) * 258 + 1 * h.val = h.val; omega
  | ⟨2, _⟩ => show win0_2.index t (2 : Fin 3) * 258 + 1 * w.val = w.val; omega

/-- The output stack the call leaves: the halo fill of the two stacks it was given. -/
abbrev stackFill (c : Dev nD) : S512x258x258.Idx → Elt F .f32 :=
  halo3 (N := 512) (FloatOps.mulf (F := F) (φ := .f32)) (V m c main_v0) (V m c main_v1)

/-- WHAT POINT `t` WRITES BACK is block `t` of the fill of the whole stacks. -/
theorem flushed_eq (c : Dev nD) (t : Fin cfg0.N) :
    (dats m 0 c).flushed 2 t = ((cfg0.win 2).blk t).view.read (Elt F) (stackFill m c) := by
  show (cfg0.win 2).cut (grid0.coords t) ((dats m 0 c).after 2 t) = _
  rw [after0_2]
  unfold outsAt0
  rw [Block.out_block]
  funext j
  obtain ⟨b, h, w, rfl⟩ : ∃ (b : Fin 16) (h w : Fin 258), j = ix3 b h w := ⟨j 0, j 1, j 2, eq_ix3 j⟩
  show FloatOps.mulf (V m c main_v0 (((cfg0.win 0).blk t).view.emb (ix3 b (srcH h w) (srcW w))))
      (V m c main_v1 (((cfg0.win 1).blk t).view.emb (ix3 b h w)))
    = stackFill m c (((cfg0.win 2).blk t).view.emb (ix3 b h w))
  rw [emb0, emb1, emb2]
  rfl

/-- An index of the stack is in point `t`'s block iff each coordinate is in the block's range on its axis. -/
theorem mem_blk (t : Fin cfg0.N) (i : S512x258x258.Idx) :
    i ∈ ((cfg0.win 2).blk t).view.set ↔ ∀ a : Fin 3, win0_2.index t a * S16x258x258.size a ≤ (i a).val
      ∧ (i a).val < win0_2.index t a * S16x258x258.size a + S16x258x258.size a := by
  show i ∈ ((View.whole main_v2).slice (win0_2.rect t)).set ↔ _
  rw [View.set_slice_whole, Rect.mem_set_unit]
  exact Iff.rfl

/-- The 32 blocks tile the stack: tile `n` is in the block of point `n / 16`. -/
theorem cover (i : S512x258x258.Idx) :
    ∃ t : Fin cfg0.N, (cfg0.win 2).flush t = true ∧ i ∈ ((cfg0.win 2).blk t).view.set := by
  have hi0 : (i 0).val < 512 := (i 0).isLt
  have hi1 : (i 1).val < 258 := (i 1).isLt
  have hi2 : (i 2).val < 258 := (i 2).isLt
  have hN : (i 0).val / 16 < cfg0.N := by
    show (i 0).val / 16 < grid0.N
    rw [N_0]; omega
  obtain ⟨-, -, -, -, -, -, e0, e1, e2⟩ := idx_facts ⟨(i 0).val / 16, hN⟩
  refine ⟨⟨(i 0).val / 16, hN⟩, flush0_2 _, ?_⟩
  rw [mem_blk]
  intro a
  match a with
  | ⟨0, _⟩ =>
    show win0_2.index ⟨(i 0).val / 16, hN⟩ (0 : Fin 3) * 16 ≤ (i 0).val
      ∧ (i 0).val < win0_2.index ⟨(i 0).val / 16, hN⟩ (0 : Fin 3) * 16 + 16
    rw [e0]; show (i 0).val / 16 * 16 ≤ (i 0).val ∧ (i 0).val < (i 0).val / 16 * 16 + 16; omega
  | ⟨1, _⟩ =>
    show win0_2.index ⟨(i 0).val / 16, hN⟩ (1 : Fin 3) * 258 ≤ (i 1).val
      ∧ (i 1).val < win0_2.index ⟨(i 0).val / 16, hN⟩ (1 : Fin 3) * 258 + 258
    rw [e1]; omega
  | ⟨2, _⟩ =>
    show win0_2.index ⟨(i 0).val / 16, hN⟩ (2 : Fin 3) * 258 ≤ (i 2).val
      ∧ (i 2).val < win0_2.index ⟨(i 0).val / 16, hN⟩ (2 : Fin 3) * 258 + 258
    rw [e2]; omega

/-- THE OUTPUT STACK after the call: the halo fill of the two input stacks. -/
theorem final (c : Dev nD) : (dats m 0 c).arrAt 2 cfg0.N = stackFill m c :=
  (dats m 0 c).arrAt_eq_of_cover 2 (stackFill m c) (fun t _ => flushed_eq m c t) cover

/-- The two input stacks are the argument arrays, reshaped by the host before the call. -/
theorem V_main_v0 (c : Dev nD) : (V m c main_v0 : S512x258x258.Idx → Elt F .f32)
    = shapeCast S512x258x258 (m ((c : Thread nD τ).loc main_arg0)) shapeCasts_S1x8x8x8x258x258x1_S512x258x258 := by
  show StableHlo.after hostOps0 (fun b => m (c, b)) (Proc.devRef .tc main_v0) = _
  after_results
  rfl

theorem V_main_v1 (c : Dev nD) : (V m c main_v1 : S512x258x258.Idx → Elt F .f32)
    = shapeCast S512x258x258 (m ((c : Thread nD τ).loc main_arg1)) shapeCasts_S1x8x8x8x258x258x1_S512x258x258 := by
  show StableHlo.after hostOps0 (fun b => m (c, b)) (Proc.devRef .tc main_v1) = _
  after_results
  rfl

/-- The program's result: the output stack reshaped by the host after the call — the halo fill of `x` times the mask
    over the arrays' own shape. -/
theorem result_eq (c : Dev nD) :
    Pipeline.afterTail₀ cfgs (dats m) 0 (V0 m) [hostOps1] c main_v3
      = halo7 (FloatOps.mulf (F := F) (φ := .f32)) (m ((c : Thread nD τ).loc main_arg0)) (m ((c : Thread nD τ).loc main_arg1)) := by
  unfold Pipeline.afterTail₀
  show StableHlo.after hostOps1 _ (Proc.devRef .tc main_v3) = _
  after_results
  rw [Pipeline.withArrays_arr spec0 launch0.win.arr_inj c _ _ 2, final]
  unfold stackFill
  rw [V_main_v0, V_main_v1]
  exact reshape_halo _ _ _ _ _

/-- The kernel's run, read: the result is the halo fill, the arguments are unchanged. -/
theorem run : θ_run defs (onTc (τ := τ) (main (F := F))) ⟨m, fun _ => 0, ρ⟩ fun r => ∀ c : Dev nD,
      r.2.mem ((c.tc : Thread nD τ).loc main_v3)
        = halo7 (FloatOps.mulf (F := F) (φ := .f32)) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.LibScatterSet.lean ====
/-
  A `stablehlo.scatter` whose body returns the update (a "set"), read at an index.

  The host's scatter is a left fold over the update indices, each replacing the result's element at the index it
  lands on. When no two update indices land on the same element, the result at an element is the update that lands
  there, and the operand's element where none does.
-/
import Idealize.ShloMosaic.PureOps.ShapeOps

namespace Cert.Lib

open Idealize.ShloMosaic

variable {s si u : Shape} {α : Type} {w : Nat}

/-- A left fold over a list whose step at `n` leaves every element other than the one `g n` names, and leaves
    everything where `g n` names none: if no `n` of the list names `i`, the fold keeps the start's element at `i`. -/
private theorem foldl_set_miss {ι β γ : Type} (g : β → Option ι) (step : (ι → γ) → β → ι → γ)
    (hother : ∀ (r : ι → γ) (n : β) (k i' : ι), g n = some k → i' ≠ k → step r n i' = r i')
    (hnone : ∀ (r : ι → γ) (n : β), g n = none → step r n = r) (i : ι) :
    ∀ (l : List β) (r : ι → γ), (∀ n ∈ l, g n ≠ some i) → l.foldl step r i = r i := by
  intro l
  induction l with
  | nil => intro r _; rfl
  | cons n l ih =>
    intro r h
    -- the tail names `i` nowhere, so the fold over it keeps what the head's step left at `i`
    rw [List.foldl_cons, ih (step r n) (fun m hm => h m (List.mem_cons_of_mem _ hm))]
    have hn : g n ≠ some i := h n (List.mem_cons.mpr (Or.inl rfl))
    cases hg : g n with
    | none => rw [hnone r n hg]
    | some k =>
      refine hother r n k i hg ?_
      intro hik
      exact hn (by rw [hg, hik])

/-- The same fold over a list without repetition, in which `n₀` is the one member that names `i`: the fold holds
    `v n₀` at `i`, the value the step at `n₀` writes there (every later step names another element, or none). -/
private theorem foldl_set_hit {ι β γ : Type} (g : β → Option ι) (v : β → γ) (step : (ι → γ) → β → ι → γ)
    (hsame : ∀ (r : ι → γ) (n : β) (k : ι), g n = some k → step r n k = v n)
    (hother : ∀ (r : ι → γ) (n : β) (k i' : ι), g n = some k → i' ≠ k → step r n i' = r i')
    (hnone : ∀ (r : ι → γ) (n : β), g n = none → step r n = r) (i : ι) (n₀ : β) (h₀ : g n₀ = some i) :
    ∀ (l : List β) (r : ι → γ), l.Nodup → n₀ ∈ l → (∀ n ∈ l, g n = some i → n = n₀) →
      l.foldl step r i = v n₀ := by
  intro l
  induction l with
  | nil => intro r _ hmem; exact absurd hmem List.not_mem_nil
  | cons n l ih =>
    intro r hnd hmem huniq
    rw [List.foldl_cons]
    rw [List.nodup_cons] at hnd
    by_cases hn : n = n₀
    · -- the head is `n₀`: it writes `v n₀` at `i`, and no member of the tail names `i` again
      have htail : ∀ m ∈ l, g m ≠ some i := by
        intro m hm hgm
        have hmn : m = n := (huniq m (List.mem_cons_of_mem _ hm) hgm).trans hn.symm
        exact hnd.1 (hmn ▸ hm)
      rw [foldl_set_miss g step hother hnone i l (step r n) htail, hn]
      exact hsame r n₀ i h₀
    · -- the head is another member: `n₀` lies in the tail
      have hmem' : n₀ ∈ l := by
        rcases List.mem_cons.mp hmem with h | h
        · exact absurd h.symm hn
        · exact h
      exact ih (step r n) hnd.2 hmem' (fun m hm => huniq m (List.mem_cons_of_mem _ hm))

/-- Where update index `j` lands on `i`, and landing is injective, the scattered array holds `upd j` at `i`. -/
theorem scatter_set_apply_of_hit (d : ScatterDims s si u) (x : s.Idx → α) (idx : IVec si w) (upd : u.Idx → α)
    (hinj : ∀ (j j' : u.Idx) (i : s.Idx), d.resultIdx? j idx = some i → d.resultIdx? j' idx = some i → j = j')
    (j : u.Idx) (i : s.Idx) (h : d.resultIdx? j idx = some i) :
    Host.scatter d (fun _ b => b) x idx upd i = upd j := by
  unfold Host.scatter
  -- a position and its update index determine each other, so `upd j` is the update at `j`'s position
  have hj : upd (u.rowMajor.symm (u.rowMajor j)) = upd j := by rw [Equiv.symm_apply_apply]
  rw [← hj]
  -- the fold runs over all row-major positions of the update; `j`'s position is the one that names `i`
  exact foldl_set_hit (fun n : Fin u.numel => d.resultIdx? (u.rowMajor.symm n) idx)
    (fun n : Fin u.numel => upd (u.rowMajor.symm n))
    (fun (r : s.Idx → α) (n : Fin u.numel) =>
      match d.resultIdx? (u.rowMajor.symm n) idx with
      | some i => fun i' => if i' = i then (fun _ b => b) (r i) (upd (u.rowMajor.symm n)) else r i'
      | none => r)
    (by intro r n k hg; simp only [hg]; exact if_pos trivial)
    (by intro r n k i' hg hne; simp only [hg]; exact if_neg hne)
    (by intro r n hg; simp only [hg])
    i (u.rowMajor j)
    (by show d.resultIdx? (u.rowMajor.symm (u.rowMajor j)) idx = some i
        rw [Equiv.symm_apply_apply]; exact h)
    (List.finRange u.numel) x (List.nodup_finRange _) (List.mem_finRange _)
    (by
      intro n _ hgn
      -- two positions naming `i` carry the same update index, and positions correspond one to one to indices
      have hj : u.rowMajor.symm n = j := hinj _ _ i hgn h
      rw [← hj, Equiv.apply_symm_apply])

/-- Where no update index lands on `i`, the scattered array keeps the operand's element. -/
theorem scatter_set_apply_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  exact foldl_set_miss (fun n : Fin u.numel => d.resultIdx? (u.rowMajor.symm n) idx)
    (fun (r : s.Idx → α) (n : Fin u.numel) =>
      match d.resultIdx? (u.rowMajor.symm n) idx with
      | some i => fun i' => if i' = i then (fun _ b => b) (r i) (upd (u.rowMajor.symm n)) else r i'
      | none => r)
    (by intro r n k i' hg hne; simp only [hg]; exact if_neg hne)
    (by intro r n hg; simp only [hg])
    i (List.finRange u.numel) x (fun n _ => h _)

end Cert.Lib
-- ==== Proof.ScatterSlab.lean ====
/-
  A scatter that SETS one slab: one scatter index `k` along one spatial axis, the update a whole slab.

  The reference writes each halo row and column with a `stablehlo.scatter` whose single scatter index is a
  constant `k` on axis 4 (a row) or axis 5 (a column), whose update has the operand's shape less that axis, and
  whose body returns the update. Update index `j` lands on the operand index that has `j`'s coordinates on the
  other six axes and `k` on the scattered one; that map is injective, so the scattered array holds the update on
  the slab `coordinate = k` and the operand everywhere else.
-/
import proofs.«403052_j84507776516392_3_alg».proof.Proof.Spec
import proofs.«403052_j84507776516392_3_alg».proof.Proof.LibScatterSet
import Idealize.ShloMosaic.Lib.ValueIdxRank6

namespace Cert.Halo

open Idealize.ShloMosaic Idealize.ShloMosaic.ValueIdx

/-- The shape of the scatter indices: one index. -/
abbrev SI1 : Shape := ⟨1, ![1]⟩

variable {α : Type}

/-- A slab index with the coordinate `k` put back on axis 4, and on axis 5. -/
def ins4 (j : S6.Idx) (k : Fin 258) : S7.Idx := ix7 (j 0) (j 1) (j 2) (j 3) k (j 4) (j 5)
def ins5 (j : S6.Idx) (k : Fin 258) : S7.Idx := ix7 (j 0) (j 1) (j 2) (j 3) (j 4) k (j 5)

/-- An index with axis 4 dropped, and with axis 5 dropped. -/
def drop4 (i : S7.Idx) : S6.Idx := ix6 (i 0) (i 1) (i 2) (i 3) (i 5) (i 6)
def drop5 (i : S7.Idx) : S6.Idx := ix6 (i 0) (i 1) (i 2) (i 3) (i 4) (i 6)

/-- With every scatter index `k`, update index `j` of a scatter along axis 4 lands on `j` with `k` put on axis 4. -/
theorem resultIdx_row (wf) (j : S6.Idx) (idx : IVec SI1 32) (k : Fin 258) (hidx : ∀ b, (idx b).toInt = (k.val : Int)) :
    (⟨[0, 1, 2, 3, 4, 5], [4], [4], 0, wf⟩ : ScatterDims S7 SI1 S6).resultIdx? j idx = some (ins4 j k) := by
  -- start plus window coordinate, axis by axis: the start is `k` on axis 4 and `0` elsewhere, the window
  -- coordinate is `0` on axis 4 and `j`'s coordinate elsewhere
  have hsw : ∀ a : Fin S7.rank, (⟨[0, 1, 2, 3, 4, 5], [4], [4], 0, wf⟩ : ScatterDims S7 SI1 S6).start j idx a
      + ((⟨[0, 1, 2, 3, 4, 5], [4], [4], 0, wf⟩ : ScatterDims S7 SI1 S6).window j a : Int) = ((ins4 j k a).val : Int) := by
    intro a
    match a with
    | ⟨0, _⟩ => exact Int.zero_add _
    | ⟨1, _⟩ => exact Int.zero_add _
    | ⟨2, _⟩ => exact Int.zero_add _
    | ⟨3, _⟩ => exact Int.zero_add _
    | ⟨4, _⟩ => exact (congrArg (· + ((0 : Nat) : Int)) (hidx _)).trans (Int.add_zero _)
    | ⟨5, _⟩ => exact Int.zero_add _
    | ⟨6, _⟩ => exact Int.zero_add _
  have h : ∀ a, 0 ≤ (⟨[0, 1, 2, 3, 4, 5], [4], [4], 0, wf⟩ : ScatterDims S7 SI1 S6).start j idx a
        + ((⟨[0, 1, 2, 3, 4, 5], [4], [4], 0, wf⟩ : ScatterDims S7 SI1 S6).window j a : Int)
      ∧ (⟨[0, 1, 2, 3, 4, 5], [4], [4], 0, wf⟩ : ScatterDims S7 SI1 S6).start j idx a
        + ((⟨[0, 1, 2, 3, 4, 5], [4], [4], 0, wf⟩ : ScatterDims S7 SI1 S6).window j a : Int) < S7.size a := by
    intro a
    rw [hsw a]
    exact ⟨Int.natCast_nonneg _, by exact_mod_cast (ins4 j k a).isLt⟩
  unfold ScatterDims.resultIdx?
  rw [dif_pos h]
  refine congrArg some (funext fun a => Fin.ext ?_)
  show ((⟨[0, 1, 2, 3, 4, 5], [4], [4], 0, wf⟩ : ScatterDims S7 SI1 S6).start j idx a
      + ((⟨[0, 1, 2, 3, 4, 5], [4], [4], 0, wf⟩ : ScatterDims S7 SI1 S6).window j a : Int)).toNat = _
  rw [hsw a]
  exact Int.toNat_natCast _

/-- The same along axis 5. -/
theorem resultIdx_col (wf) (j : S6.Idx) (idx : IVec SI1 32) (k : Fin 258) (hidx : ∀ b, (idx b).toInt = (k.val : Int)) :
    (⟨[0, 1, 2, 3, 4, 5], [5], [5], 0, wf⟩ : ScatterDims S7 SI1 S6).resultIdx? j idx = some (ins5 j k) := by
  have hsw : ∀ a : Fin S7.rank, (⟨[0, 1, 2, 3, 4, 5], [5], [5], 0, wf⟩ : ScatterDims S7 SI1 S6).start j idx a
      + ((⟨[0, 1, 2, 3, 4, 5], [5], [5], 0, wf⟩ : ScatterDims S7 SI1 S6).window j a : Int) = ((ins5 j k a).val : Int) := by
    intro a
    match a with
    | ⟨0, _⟩ => exact Int.zero_add _
    | ⟨1, _⟩ => exact Int.zero_add _
    | ⟨2, _⟩ => exact Int.zero_add _
    | ⟨3, _⟩ => exact Int.zero_add _
    | ⟨4, _⟩ => exact Int.zero_add _
    | ⟨5, _⟩ => exact (congrArg (· + ((0 : Nat) : Int)) (hidx _)).trans (Int.add_zero _)
    | ⟨6, _⟩ => exact Int.zero_add _
  have h : ∀ a, 0 ≤ (⟨[0, 1, 2, 3, 4, 5], [5], [5], 0, wf⟩ : ScatterDims S7 SI1 S6).start j idx a
        + ((⟨[0, 1, 2, 3, 4, 5], [5], [5], 0, wf⟩ : ScatterDims S7 SI1 S6).window j a : Int)
      ∧ (⟨[0, 1, 2, 3, 4, 5], [5], [5], 0, wf⟩ : ScatterDims S7 SI1 S6).start j idx a
        + ((⟨[0, 1, 2, 3, 4, 5], [5], [5], 0, wf⟩ : ScatterDims S7 SI1 S6).window j a : Int) < S7.size a := by
    intro a
    rw [hsw a]
    exact ⟨Int.natCast_nonneg _, by exact_mod_cast (ins5 j k a).isLt⟩
  unfold ScatterDims.resultIdx?
  rw [dif_pos h]
  refine congrArg some (funext fun a => Fin.ext ?_)
  show ((⟨[0, 1, 2, 3, 4, 5], [5], [5], 0, wf⟩ : ScatterDims S7 SI1 S6).start j idx a
      + ((⟨[0, 1, 2, 3, 4, 5], [5], [5], 0, wf⟩ : ScatterDims S7 SI1 S6).window j a : Int)).toNat = _
  rw [hsw a]
  exact Int.toNat_natCast _

/-- A set-scatter of a slab at row `k`: the update on the row `k`, the operand on every other row. -/
theorem scatter_row_apply (wf) (X : S7.Idx → α) (idx : IVec SI1 32) (upd : S6.Idx → α) (k : Fin 258)
    (hidx : ∀ b, (idx b).toInt = (k.val : Int)) (i : S7.Idx) :
    Host.scatter (⟨[0, 1, 2, 3, 4, 5], [4], [4], 0, wf⟩ : ScatterDims S7 SI1 S6) (fun _ b => b) X idx upd i
      = if (i 4).val = k.val then upd (drop4 i) else X i := by
  -- two update indices landing on one element agree on all six coordinates
  have hinj : ∀ (j j' : S6.Idx) (i : S7.Idx),
      (⟨[0, 1, 2, 3, 4, 5], [4], [4], 0, wf⟩ : ScatterDims S7 SI1 S6).resultIdx? j idx = some i →
      (⟨[0, 1, 2, 3, 4, 5], [4], [4], 0, wf⟩ : ScatterDims S7 SI1 S6).resultIdx? j' idx = some i → j = j' := by
    intro j j' i h h'
    rw [resultIdx_row wf j idx k hidx] at h
    rw [resultIdx_row wf j' idx k hidx] at h'
    have e : ins4 j k = ins4 j' k := (Option.some.inj h).trans (Option.some.inj h').symm
    funext a
    match a with
    | ⟨0, _⟩ => exact congrFun e ⟨0, by decide⟩
    | ⟨1, _⟩ => exact congrFun e ⟨1, by decide⟩
    | ⟨2, _⟩ => exact congrFun e ⟨2, by decide⟩
    | ⟨3, _⟩ => exact congrFun e ⟨3, by decide⟩
    | ⟨4, _⟩ => exact congrFun e ⟨5, by decide⟩
    | ⟨5, _⟩ => exact congrFun e ⟨6, by decide⟩
  by_cases hk : (i 4).val = k.val
  · rw [if_pos hk]
    refine Cert.Lib.scatter_set_apply_of_hit _ X idx upd hinj (drop4 i) i ?_
    rw [resultIdx_row wf _ idx k hidx]
    refine congrArg some (funext fun a => ?_)
    match a with
    | ⟨0, _⟩ => rfl
    | ⟨1, _⟩ => rfl
    | ⟨2, _⟩ => rfl
    | ⟨3, _⟩ => rfl
    | ⟨4, _⟩ => exact Fin.ext hk.symm
    | ⟨5, _⟩ => rfl
    | ⟨6, _⟩ => rfl
  · rw [if_neg hk]
    refine Cert.Lib.scatter_set_apply_of_miss _ X idx upd i (fun j hj => hk ?_)
    rw [resultIdx_row wf j idx k hidx] at hj
    exact (congrArg Fin.val (congrFun (Option.some.inj hj) ⟨4, by decide⟩)).symm

/-- A set-scatter of a slab at column `k`: the update on the column `k`, the operand on every other column. -/
theorem scatter_col_apply (wf) (X : S7.Idx → α) (idx : IVec SI1 32) (upd : S6.Idx → α) (k : Fin 258)
    (hidx : ∀ b, (idx b).toInt = (k.val : Int)) (i : S7.Idx) :
    Host.scatter (⟨[0, 1, 2, 3, 4, 5], [5], [5], 0, wf⟩ : ScatterDims S7 SI1 S6) (fun _ b => b) X idx upd i
      = if (i 5).val = k.val then upd (drop5 i) else X i := by
  have hinj : ∀ (j j' : S6.Idx) (i : S7.Idx),
      (⟨[0, 1, 2, 3, 4, 5], [5], [5], 0, wf⟩ : ScatterDims S7 SI1 S6).resultIdx? j idx = some i →
      (⟨[0, 1, 2, 3, 4, 5], [5], [5], 0, wf⟩ : ScatterDims S7 SI1 S6).resultIdx? j' idx = some i → j = j' := by
    intro j j' i h h'
    rw [resultIdx_col wf j idx k hidx] at h
    rw [resultIdx_col wf j' idx k hidx] at h'
    have e : ins5 j k = ins5 j' k := (Option.some.inj h).trans (Option.some.inj h').symm
    funext a
    match a with
    | ⟨0, _⟩ => exact congrFun e ⟨0, by decide⟩
    | ⟨1, _⟩ => exact congrFun e ⟨1, by decide⟩
    | ⟨2, _⟩ => exact congrFun e ⟨2, by decide⟩
    | ⟨3, _⟩ => exact congrFun e ⟨3, by decide⟩
    | ⟨4, _⟩ => exact congrFun e ⟨4, by decide⟩
    | ⟨5, _⟩ => exact congrFun e ⟨6, by decide⟩
  by_cases hk : (i 5).val = k.val
  · rw [if_pos hk]
    refine Cert.Lib.scatter_set_apply_of_hit _ X idx upd hinj (drop5 i) i ?_
    rw [resultIdx_col wf _ idx k hidx]
    refine congrArg some (funext fun a => ?_)
    match a with
    | ⟨0, _⟩ => rfl
    | ⟨1, _⟩ => rfl
    | ⟨2, _⟩ => rfl
    | ⟨3, _⟩ => rfl
    | ⟨4, _⟩ => rfl
    | ⟨5, _⟩ => exact Fin.ext hk.symm
    | ⟨6, _⟩ => rfl
  · rw [if_neg hk]
    refine Cert.Lib.scatter_set_apply_of_miss _ X idx upd i (fun j hj => hk ?_)
    rw [resultIdx_col wf j idx k hidx] at hj
    exact (congrArg Fin.val (congrFun (Option.some.inj hj) ⟨5, by decide⟩)).symm

/-- The shapes of a one-row and of a one-column slice of the arrays, before their unit axis is dropped. -/
abbrev S7r : Shape := ⟨7, ![1, 8, 8, 8, 1, 258, 1]⟩
abbrev S7c : Shape := ⟨7, ![1, 8, 8, 8, 258, 1, 1]⟩

/-- Row `r` of `x`, sliced out and its unit axis dropped, read at a slab index: `x` at that index with `r` on axis 4. -/
theorem rowSlab_apply (x : S7.Idx → α) (r : Nat) (hr : r < 258) (hS : S7.Slices ![0, 0, 0, 0, r, 0, 0] S7r)
    (hC : S7r.ShapeCasts S6) (j : S6.Idx) :
    shapeCast S6 (extractStridedSlice S7r ![0, 0, 0, 0, r, 0, 0] x hS) hC j = x (ins4 j ⟨r, hr⟩) := by
  obtain ⟨a0, a, b, c, w, z, rfl⟩ : ∃ (a0 : Fin 1) (a b c : Fin 8) (w : Fin 258) (z : Fin 1),
      j = ix6 a0 a b c w z := ⟨j 0, j 1, j 2, j 3, j 4, j 5, eq_ix6 j⟩
  -- dropping the unit axis keeps the row-major position
  have hk : (S7r.rowMajor (ix7 a0 a b c (0 : Fin 1) w z)).val = (S6.rowMajor (ix6 a0 a b c w z)).val := by
    rw [rowMajor_val_seven, Shape.rowMajor_val_six]
    show ((((((a0.val * 8 + a.val) * 8 + b.val) * 8 + c.val) * 1 + 0) * 258 + w.val) * 1 + z.val)
      = ((((a0.val * 8 + a.val) * 8 + b.val) * 8 + c.val) * 258 + w.val) * 1 + z.val
    omega
  rw [shapeCast_apply _ hC (ix6 a0 a b c w z) (ix7 a0 a b c (0 : Fin 1) w z) hk]
  exact extractStridedSlice_apply _ x hS (ix7 a0 a b c (0 : Fin 1) w z) (ins4 (ix6 a0 a b c w z) ⟨r, hr⟩) (fun g =>
    match g with
    | ⟨0, _⟩ => by show a0.val = 0 + a0.val; omega
    | ⟨1, _⟩ => by show a.val = 0 + a.val; omega
    | ⟨2, _⟩ => by show b.val = 0 + b.val; omega
    | ⟨3, _⟩ => by show c.val = 0 + c.val; omega
    | ⟨4, _⟩ => by show r = r + 0; omega
    | ⟨5, _⟩ => by show w.val = 0 + w.val; omega
    | ⟨6, _⟩ => by show z.val = 0 + z.val; omega)

/-- Column `r` of `x`, sliced out and its unit axis dropped, read at a slab index: `x` at that index with `r` on axis 5. -/
theorem colSlab_apply (x : S7.Idx → α) (r : Nat) (hr : r < 258) (hS : S7.Slices ![0, 0, 0, 0, 0, r, 0] S7c)
    (hC : S7c.ShapeCasts S6) (j : S6.Idx) :
    shapeCast S6 (extractStridedSlice S7c ![0, 0, 0, 0, 0, r, 0] x hS) hC j = x (ins5 j ⟨r, hr⟩) := by
  obtain ⟨a0, a, b, c, h, z, rfl⟩ : ∃ (a0 : Fin 1) (a b c : Fin 8) (h : Fin 258) (z : Fin 1),
      j = ix6 a0 a b c h z := ⟨j 0, j 1, j 2, j 3, j 4, j 5, eq_ix6 j⟩
  have hk : (S7c.rowMajor (ix7 a0 a b c h (0 : Fin 1) z)).val = (S6.rowMajor (ix6 a0 a b c h z)).val := by
    rw [rowMajor_val_seven, Shape.rowMajor_val_six]
    show ((((((a0.val * 8 + a.val) * 8 + b.val) * 8 + c.val) * 258 + h.val) * 1 + 0) * 1 + z.val)
      = ((((a0.val * 8 + a.val) * 8 + b.val) * 8 + c.val) * 258 + h.val) * 1 + z.val
    omega
  rw [shapeCast_apply _ hC (ix6 a0 a b c h z) (ix7 a0 a b c h (0 : Fin 1) z) hk]
  exact extractStridedSlice_apply _ x hS (ix7 a0 a b c h (0 : Fin 1) z) (ins5 (ix6 a0 a b c h z) ⟨r, hr⟩) (fun g =>
    match g with
    | ⟨0, _⟩ => by show a0.val = 0 + a0.val; omega
    | ⟨1, _⟩ => by show a.val = 0 + a.val; omega
    | ⟨2, _⟩ => by show b.val = 0 + b.val; omega
    | ⟨3, _⟩ => by show c.val = 0 + c.val; omega
    | ⟨4, _⟩ => by show h.val = 0 + h.val; omega
    | ⟨5, _⟩ => by show r = r + 0; omega
    | ⟨6, _⟩ => by show z.val = 0 + z.val; omega)

end Cert.Halo
-- ==== Proof.RefValue.lean ====
/-
  What the reference computes, index by index.

  The reference overwrites row 0 of `x` with row 1, row 257 with row 256, then column 0 with column 1 and column 257
  with column 256 — every written slab taken from the ORIGINAL `x` — and multiplies by the mask. Each write is a
  set-scatter of one slab at a constant index, so after the four of them the array at `(…, h, w, …)` is `x` at the
  source index: the last column write that covers the index decides, then the last row write, else the index is
  kept. That is the specification's `src7`, and the product with the mask is `halo7`.
-/
import proofs.«403052_j84507776516392_3_alg».proof.Proof.Gen.ReferenceIdeal.Run
import proofs.«403052_j84507776516392_3_alg».proof.Proof.ScatterSlab

noncomputable section

namespace Cert.ReferenceIdeal.RefValue

open Cert.ReferenceIdeal Cert.ReferenceIdeal.Gen Cert.Halo
open Idealize.ShloMosaic Idealize.ShloMosaic.ValueIdx

variable {F : FTy → Type} [FloatOps F]

/-! ## The reference's stages, named -/

/-- The scatter-index vector holding the one constant `k`. -/
def idxConst (k : BitVec 32) : IVec S1 32 := broadcastInDim S1 ![] bcast_S_S1 (constantI S_ 32 k)

/-- Row `r` of `x`, and column `r` of `x`, each as a slab with its unit axis dropped. -/
def rowOf (r : Nat) (hS : S1x8x8x8x258x258x1.Slices ![0, 0, 0, 0, r, 0, 0] S1x8x8x8x1x258x1)
    (x0 : S1x8x8x8x258x258x1.Idx → Elt F .f32) : S1x8x8x8x258x1.Idx → Elt F .f32 :=
  shapeCast _ (extractStridedSlice S1x8x8x8x1x258x1 ![0, 0, 0, 0, r, 0, 0] x0 hS) shapeCasts_S1x8x8x8x1x258x1_S1x8x8x8x258x1
def colOf (r : Nat) (hS : S1x8x8x8x258x258x1.Slices ![0, 0, 0, 0, 0, r, 0] S1x8x8x8x258x1x1)
    (x0 : S1x8x8x8x258x258x1.Idx → Elt F .f32) : S1x8x8x8x258x1.Idx → Elt F .f32 :=
  shapeCast _ (extractStridedSlice S1x8x8x8x258x1x1 ![0, 0, 0, 0, 0, r, 0] x0 hS) shapeCasts_S1x8x8x8x258x1x1_S1x8x8x8x258x1

variable (x0 : S1x8x8x8x258x258x1.Idx → Elt F .f32)

/-- `x` after the first write (row 0), the second (row 257), the third (column 0) and the fourth (column 257). -/
def st3 : S1x8x8x8x258x258x1.Idx → Elt F .f32 :=
  Host.scatter scatter_S1x8x8x8x258x258x1_S1_S1x8x8x8x258x1_012345_4_4_0 (fun _ b => b) x0 (idxConst 0#32)
    (rowOf 1 slices_S1x8x8x8x258x258x1_S1x8x8x8x1x258x1_0_0_0_0_1_0_0 x0)
def st7 : S1x8x8x8x258x258x1.Idx → Elt F .f32 :=
  Host.scatter scatter_S1x8x8x8x258x258x1_S1_S1x8x8x8x258x1_012345_4_4_0 (fun _ b => b) (st3 x0) (idxConst 257#32)
    (rowOf 256 slices_S1x8x8x8x258x258x1_S1x8x8x8x1x258x1_0_0_0_0_256_0_0 x0)
def st11 : S1x8x8x8x258x258x1.Idx → Elt F .f32 :=
  Host.scatter scatter_S1x8x8x8x258x258x1_S1_S1x8x8x8x258x1_012345_5_5_0 (fun _ b => b) (st7 x0) (idxConst 0#32)
    (colOf 1 slices_S1x8x8x8x258x258x1_S1x8x8x8x258x1x1_0_0_0_0_0_1_0 x0)
def st15 : S1x8x8x8x258x258x1.Idx → Elt F .f32 :=
  Host.scatter scatter_S1x8x8x8x258x258x1_S1_S1x8x8x8x258x1_012345_5_5_0 (fun _ b => b) (st11 x0) (idxConst 257#32)
    (colOf 256 slices_S1x8x8x8x258x258x1_S1x8x8x8x258x1x1_0_0_0_0_0_256_0 x0)

/-! ## The four writes, each read at coordinates -/

/-- Row 0 takes row 1 of `x`. -/
theorem st3_coord (a0 : Fin 1) (a b c : Fin 8) (h w : Fin 258) (z : Fin 1) :
    st3 x0 (ix7 a0 a b c h w z)
      = if h.val = 0 then x0 (ix7 a0 a b c (⟨1, by omega⟩ : Fin 258) w z) else x0 (ix7 a0 a b c h w z) := by
  unfold st3
  refine (scatter_row_apply _ x0 (idxConst 0#32) (rowOf 1 _ x0) ⟨0, by omega⟩ (fun _ => rfl)
    (ix7 a0 a b c h w z)).trans ?_
  show (if h.val = 0 then rowOf 1 _ x0 (ix6 a0 a b c w z) else _) = _
  unfold rowOf
  rw [rowSlab_apply x0 1 (by omega) _ _ (ix6 a0 a b c w z)]
  rfl

/-- Row 257 takes row 256 of `x`. -/
theorem st7_coord (a0 : Fin 1) (a b c : Fin 8) (h w : Fin 258) (z : Fin 1) :
    st7 x0 (ix7 a0 a b c h w z)
      = if h.val = 257 then x0 (ix7 a0 a b c (⟨256, by omega⟩ : Fin 258) w z) else st3 x0 (ix7 a0 a b c h w z) := by
  unfold st7
  refine (scatter_row_apply _ (st3 x0) (idxConst 257#32) (rowOf 256 _ x0) ⟨257, by omega⟩ (fun _ => rfl)
    (ix7 a0 a b c h w z)).trans ?_
  show (if h.val = 257 then rowOf 256 _ x0 (ix6 a0 a b c w z) else _) = _
  unfold rowOf
  rw [rowSlab_apply x0 256 (by omega) _ _ (ix6 a0 a b c w z)]
  rfl

/-- Column 0 takes column 1 of `x`. -/
theorem st11_coord (a0 : Fin 1) (a b c : Fin 8) (h w : Fin 258) (z : Fin 1) :
    st11 x0 (ix7 a0 a b c h w z)
      = if w.val = 0 then x0 (ix7 a0 a b c h (⟨1, by omega⟩ : Fin 258) z) else st7 x0 (ix7 a0 a b c h w z) := by
  unfold st11
  refine (scatter_col_apply _ (st7 x0) (idxConst 0#32) (colOf 1 _ x0) ⟨0, by omega⟩ (fun _ => rfl)
    (ix7 a0 a b c h w z)).trans ?_
  show (if w.val = 0 then colOf 1 _ x0 (ix6 a0 a b c h z) else _) = _
  unfold colOf
  rw [colSlab_apply x0 1 (by omega) _ _ (ix6 a0 a b c h z)]
  rfl

/-- Column 257 takes column 256 of `x`. -/
theorem st15_coord (a0 : Fin 1) (a b c : Fin 8) (h w : Fin 258) (z : Fin 1) :
    st15 x0 (ix7 a0 a b c h w z)
      = if w.val = 257 then x0 (ix7 a0 a b c h (⟨256, by omega⟩ : Fin 258) z) else st11 x0 (ix7 a0 a b c h w z) := by
  unfold st15
  refine (scatter_col_apply _ (st11 x0) (idxConst 257#32) (colOf 256 _ x0) ⟨257, by omega⟩ (fun _ => rfl)
    (ix7 a0 a b c h w z)).trans ?_
  show (if w.val = 257 then colOf 256 _ x0 (ix6 a0 a b c h z) else _) = _
  unfold colOf
  rw [colSlab_apply x0 256 (by omega) _ _ (ix6 a0 a b c h z)]
  rfl

/-! ## After the four writes: `x` at the source index -/

theorem st15_eq (a0 : Fin 1) (a b c : Fin 8) (h w : Fin 258) (z : Fin 1) :
    st15 x0 (ix7 a0 a b c h w z) = x0 (ix7 a0 a b c (srcH h w) (srcW w) z) := by
  rw [st15_coord, st11_coord, st7_coord, st3_coord]
  by_cases hw1 : w.val = 257
  · -- last column: the neighbouring column, the row kept
    have e1 : srcW w = ⟨256, by omega⟩ := by unfold srcW; rw [if_neg (by omega), if_pos hw1]
    have e2 : srcH h w = h := by unfold srcH; rw [if_pos (Or.inr hw1)]
    rw [if_pos hw1, e1, e2]
  · rw [if_neg hw1]
    by_cases hw0 : w.val = 0
    · -- first column
      have e1 : srcW w = ⟨1, by omega⟩ := by unfold srcW; rw [if_pos hw0]
      have e2 : srcH h w = h := by unfold srcH; rw [if_pos (Or.inl hw0)]
      rw [if_pos hw0, e1, e2]
    · rw [if_neg hw0]
      have e1 : srcW w = w := by unfold srcW; rw [if_neg hw0, if_neg hw1]
      have hc : ¬ (w.val = 0 ∨ w.val = 257) := fun hh => hh.elim hw0 hw1
      by_cases hh1 : h.val = 257
      · -- last row, off the two columns
        have e2 : srcH h w = ⟨256, by omega⟩ := by unfold srcH; rw [if_neg hc, if_neg (by omega), if_pos hh1]
        rw [if_pos hh1, e1, e2]
      · rw [if_neg hh1]
        by_cases hh0 : h.val = 0
        · have e2 : srcH h w = ⟨1, by omega⟩ := by unfold srcH; rw [if_neg hc, if_pos hh0]
          rw [if_pos hh0, e1, e2]
        · have e2 : srcH h w = h := by unfold srcH; rw [if_neg hc, if_neg hh0, if_neg hh1]
          rw [if_neg hh0, e1, e2]

/-- The reference's result is the halo fill of `x` times the mask. -/
theorem ref_eq (x1 : S1x8x8x8x258x258x1.Idx → Elt F .f32) :
    mulf (F := F) (φ := .f32) (st15 x0) x1 = halo7 (FloatOps.mulf (F := F) (φ := .f32)) x0 x1 := by
  funext i
  obtain ⟨a0, a, b, c, h, w, z, rfl⟩ : ∃ (a0 : Fin 1) (a b c : Fin 8) (h w : Fin 258) (z : Fin 1),
      i = ix7 a0 a b c h w z := ⟨i 0, i 1, i 2, i 3, i 4, i 5, i 6, eq_ix7 i⟩
  show FloatOps.mulf (st15 x0 (ix7 a0 a b c h w z)) (x1 (ix7 a0 a b c h w z)) = _
  rw [st15_eq]
  rfl

end Cert.ReferenceIdeal.RefValue

end
-- ==== Proof.lean ====
/-
  The halo fill of a stack of spatial tiles, kernel against reference, over the extended reals.

  Both programs take `x` and a mask `hm` of shape `[1, 8, 8, 8, 258, 258, 1]` and return, at every index, `hm` there
  times `x` at a SOURCE index that differs from the index only on the boundary of the 258 × 258 spatial tile: on
  columns 0 and 257 the neighbouring column (1, 256) of the same row; elsewhere on rows 0 and 257 the neighbouring
  row (1, 256) of the same column (`Cert.Halo.src7`, Proof/Spec.lean).

  * The reference writes the two rows and then the two columns by four set-scatters of slabs of the original `x`,
    then multiplies (Proof/ScatterSlab.lean reads such a scatter at an index, Proof/RefValue.lean chains the four).
  * The kernel sees the arrays as 512 tiles, walks them 16 at a time, and in each block stores the plain product,
    then the two halo rows, then the two halo columns, each from the block of the original `x` (Proof/Block.lean
    reads the five overlapping stores back; Proof/KernelValue.lean tiles the 32 blocks into the array and carries
    the result through the host's reshapes).

  The two results are the same function of the arguments with the same multiplication applied to the same pair of
  entries, so no property of the extended reals is used and the precondition is never opened. The idealization
  rewrote nothing, so `preserves` is `True`.
-/
import proofs.«403052_j84507776516392_3_alg».proof.Defs
import proofs.«403052_j84507776516392_3_alg».proof.Proof.Gen.Kernel
import proofs.«403052_j84507776516392_3_alg».proof.Proof.Gen.KernelIdeal
import proofs.«403052_j84507776516392_3_alg».proof.Proof.Gen.ReferenceIdeal
import proofs.«403052_j84507776516392_3_alg».proof.Proof.Gen.Pre_finite_inputs
import proofs.«403052_j84507776516392_3_alg».proof.Proof.FrameKernel
import proofs.«403052_j84507776516392_3_alg».proof.Proof.FrameKernelIdeal
import proofs.«403052_j84507776516392_3_alg».proof.Proof.KernelValue
import proofs.«403052_j84507776516392_3_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and the mask, both programs end with the halo fill of `x` times the mask. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
